-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S8388608 : Shape := ⟨1, ![8388608]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) (main_arg1 : IVec S8388608 32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  main_v3
-- ==== Kernel.lean ====
abbrev S8388608x2 : Shape := ⟨2, ![8388608, 2]⟩
abbrev S8388608 : Shape := ⟨1, ![8388608]⟩
abbrev S8388608x1 : Shape := ⟨2, ![8388608, 1]⟩
abbrev S65536x128 : Shape := ⟨2, ![65536, 128]⟩
abbrev S2048x128 : Shape := ⟨2, ![2048, 128]⟩

abbrev nBuf : Space → Nat
  | .hbm => 11
  | .vmem => 8
  | .smem => 0
  | _ => 0

abbrev bufTy : (tb : Table) → Fin (tcTables nBuf tb) → BufTy
  | .hbm, ⟨0, _⟩ => ⟨S8388608x2, .f32⟩
  | .hbm, ⟨1, _⟩ => ⟨S8388608, .i32⟩
  | .hbm, ⟨2, _⟩ => ⟨S8388608x1, .f32⟩
  | .hbm, ⟨3, _⟩ => ⟨S8388608, .f32⟩
  | .hbm, ⟨4, _⟩ => ⟨S65536x128, .f32⟩
  | .hbm, ⟨5, _⟩ => ⟨S8388608x1, .f32⟩
  | .hbm, ⟨6, _⟩ => ⟨S8388608, .f32⟩
  | .hbm, ⟨7, _⟩ => ⟨S65536x128, .f32⟩
  | .hbm, ⟨8, _⟩ => ⟨S65536x128, .i32⟩
  | .hbm, ⟨9, _⟩ => ⟨S65536x128, .f32⟩
  | .hbm, ⟨10, _⟩ => ⟨S8388608, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .i32⟩
  | .local _ .vmem, ⟨5, _⟩ => ⟨S2048x128, .i32⟩
  | .local _ .vmem, ⟨6, _⟩ => ⟨S2048x128, .f32⟩
  | .local _ .vmem, ⟨7, _⟩ => ⟨S2048x128, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8388608x2_S8388608x1_0_0 : S8388608x2.Slices ![0, 0] S8388608x1
  shapeCasts_S8388608x1_S8388608 : S8388608x1.ShapeCasts S8388608
  shapeCasts_S8388608_S65536x128 : S8388608.ShapeCasts S65536x128
  slices_S8388608x2_S8388608x1_0_1 : S8388608x2.Slices ![0, 1] S8388608x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S65536x128_S8388608 : S65536x128.ShapeCasts S8388608
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .i32 = 32 ∨ (Rect.block (s := S65536x128) S2048x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)

variable [Facts₀]

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8388608 : Shape := ⟨1, ![8388608]⟩
abbrev S_ : Shape := ⟨0, ![]⟩
abbrev S8388608x1 : Shape := ⟨2, ![8388608, 1]⟩

abbrev nBuf : Space → Nat
  | .hbm => 167
  | .vmem => 0
  | .smem => 0
  | _ => 0

abbrev hbmTy0_0 (i : Nat) : BufTy := match i % 128 with
  | 0 => ⟨S8388608x2, .f32⟩
  | 1 => ⟨S8388608, .i32⟩
  | 2 => ⟨S_, .i32⟩
  | 3 => ⟨S_, .i32⟩
  | 4 => ⟨S_, .i32⟩
  | 5 => ⟨S_, .i32⟩
  | 6 => ⟨S8388608x1, .f32⟩
  | 7 => ⟨S8388608, .f32⟩
  | 8 => ⟨S8388608x1, .f32⟩
  | 9 => ⟨S8388608, .f32⟩
  | 10 => ⟨S8388608, .f32⟩
  | 11 => ⟨S8388608, .f32⟩
  | 12 => ⟨S8388608, .f32⟩
  | 13 => ⟨S8388608, .f32⟩
  | 14 => ⟨S8388608, .i32⟩
  | 15 => ⟨S8388608, .i32⟩
  | 16 => ⟨S_, .i32⟩
  | 17 => ⟨S8388608, .i32⟩
  | 18 => ⟨S8388608, .i32⟩
  | 19 => ⟨S_, .i32⟩
  | 20 => ⟨S8388608, .i32⟩
  | 21 => ⟨S8388608, .i32⟩
  | 22 => ⟨S8388608, .i32⟩
  | 23 => ⟨S8388608, .i32⟩
  | 24 => ⟨S8388608, .i32⟩
  | 25 => ⟨S8388608, .i32⟩
  | 26 => ⟨S8388608, .i32⟩
  | 27 => ⟨S8388608, .i32⟩
  | 28 => ⟨S8388608, .i32⟩
  | 29 => ⟨S8388608, .i32⟩
  | 30 => ⟨S8388608, .i32⟩
  | 31 => ⟨S8388608, .i32⟩
  | 32 => ⟨S_, .i32⟩
  | 33 => ⟨S8388608, .i32⟩
  | 34 => ⟨S8388608, .i32⟩
  | 35 => ⟨S8388608, .i32⟩
  | 36 => ⟨S8388608, .i32⟩
  | 37 => ⟨S_, .i32⟩
  | 38 => ⟨S8388608, .i32⟩
  | 39 => ⟨S8388608, .i32⟩
  | 40 => ⟨S_, .i32⟩
  | 41 => ⟨S8388608, .i32⟩
  | 42 => ⟨S8388608, .i32⟩
  | 43 => ⟨S8388608, .i32⟩
  | 44 => ⟨S_, .i32⟩
  | 45 => ⟨S8388608, .i32⟩
  | 46 => ⟨S8388608, .i32⟩
  | 47 => ⟨S8388608, .i32⟩
  | 48 => ⟨S8388608, .i32⟩
  | 49 => ⟨S8388608, .f32⟩
  | 50 => ⟨S_, .f32⟩
  | 51 => ⟨S8388608, .f32⟩
  | 52 => ⟨S8388608, .f32⟩
  | 53 => ⟨S_, .f32⟩
  | 54 => ⟨S8388608, .f32⟩
  | 55 => ⟨S8388608, .f32⟩
  | 56 => ⟨S8388608, .i32⟩
  | 57 => ⟨S8388608, .i32⟩
  | 58 => ⟨S8388608, .i32⟩
  | 59 => ⟨S8388608, .i32⟩
  | 60 => ⟨S8388608, .i32⟩
  | 61 => ⟨S8388608, .i32⟩
  | 62 => ⟨S8388608, .i32⟩
  | 63 => ⟨S8388608, .i32⟩
  | 64 => ⟨S8388608, .i32⟩
  | 65 => ⟨S8388608, .i32⟩
  | 66 => ⟨S_, .i32⟩
  | 67 => ⟨S8388608, .i32⟩
  | 68 => ⟨S8388608, .i32⟩
  | 69 => ⟨S8388608, .i32⟩
  | 70 => ⟨S8388608, .i32⟩
  | 71 => ⟨S_, .i32⟩
  | 72 => ⟨S8388608, .i32⟩
  | 73 => ⟨S8388608, .i32⟩
  | 74 => ⟨S_, .i32⟩
  | 75 => ⟨S8388608, .i32⟩
  | 76 => ⟨S8388608, .i32⟩
  | 77 => ⟨S8388608, .i32⟩
  | 78 => ⟨S_, .i32⟩
  | 79 => ⟨S8388608, .i32⟩
  | 80 => ⟨S8388608, .i32⟩
  | 81 => ⟨S8388608, .i32⟩
  | 82 => ⟨S8388608, .i32⟩
  | 83 => ⟨S8388608, .f32⟩
  | 84 => ⟨S_, .f32⟩
  | 85 => ⟨S8388608, .f32⟩
  | 86 => ⟨S8388608, .f32⟩
  | 87 => ⟨S_, .f32⟩
  | 88 => ⟨S8388608, .f32⟩
  | 89 => ⟨S8388608, .f32⟩
  | 90 => ⟨S8388608, .i32⟩
  | 91 => ⟨S8388608, .i32⟩
  | 92 => ⟨S8388608, .i32⟩
  | 93 => ⟨S8388608, .i32⟩
  | 94 => ⟨S8388608, .i32⟩
  | 95 => ⟨S8388608, .i32⟩
  | 96 => ⟨S8388608, .i32⟩
  | 97 => ⟨S8388608, .i32⟩
  | 98 => ⟨S8388608, .i32⟩
  | 99 => ⟨S8388608, .i32⟩
  | 100 => ⟨S_, .i32⟩
  | 101 => ⟨S8388608, .i32⟩
  | 102 => ⟨S8388608, .i32⟩
  | 103 => ⟨S8388608, .i32⟩
  | 104 => ⟨S8388608, .i32⟩
  | 105 => ⟨S_, .i32⟩
  | 106 => ⟨S8388608, .i32⟩
  | 107 => ⟨S8388608, .i32⟩
  | 108 => ⟨S_, .i32⟩
  | 109 => ⟨S8388608, .i32⟩
  | 110 => ⟨S8388608, .i32⟩
  | 111 => ⟨S8388608, .i32⟩
  | 112 => ⟨S_, .i32⟩
  | 113 => ⟨S8388608, .i32⟩
  | 114 => ⟨S8388608, .i32⟩
  | 115 => ⟨S8388608, .i32⟩
  | 116 => ⟨S8388608, .i32⟩
  | 117 => ⟨S8388608, .f32⟩
  | 118 => ⟨S_, .f32⟩
  | 119 => ⟨S8388608, .f32⟩
  | 120 => ⟨S8388608, .f32⟩
  | 121 => ⟨S_, .f32⟩
  | 122 => ⟨S8388608, .f32⟩
  | 123 => ⟨S8388608, .f32⟩
  | 124 => ⟨S8388608, .i32⟩
  | 125 => ⟨S8388608, .i32⟩
  | 126 => ⟨S8388608, .i32⟩
  | 127 => ⟨S8388608, .i32⟩
  | _ => ⟨S8388608x2, .f32⟩

abbrev hbmTy0_1 (i : Nat) : BufTy := match i % 128 with
  | 0 => ⟨S8388608, .i32⟩
  | 1 => ⟨S8388608, .i32⟩
  | 2 => ⟨S8388608, .i32⟩
  | 3 => ⟨S8388608, .i32⟩
  | 4 => ⟨S8388608, .i32⟩
  | 5 => ⟨S8388608, .i32⟩
  | 6 => ⟨S_, .i32⟩
  | 7 => ⟨S8388608, .i32⟩
  | 8 => ⟨S8388608, .i32⟩
  | 9 => ⟨S8388608, .i32⟩
  | 10 => ⟨S8388608, .i32⟩
  | 11 => ⟨S_, .i32⟩
  | 12 => ⟨S8388608, .i32⟩
  | 13 => ⟨S8388608, .i32⟩
  | 14 => ⟨S_, .i32⟩
  | 15 => ⟨S8388608, .i32⟩
  | 16 => ⟨S8388608, .i32⟩
  | 17 => ⟨S8388608, .i32⟩
  | 18 => ⟨S_, .i32⟩
  | 19 => ⟨S8388608, .i32⟩
  | 20 => ⟨S8388608, .i32⟩
  | 21 => ⟨S8388608, .i32⟩
  | 22 => ⟨S8388608, .i32⟩
  | 23 => ⟨S8388608, .f32⟩
  | 24 => ⟨S_, .f32⟩
  | 25 => ⟨S8388608, .f32⟩
  | 26 => ⟨S8388608, .f32⟩
  | 27 => ⟨S_, .f32⟩
  | 28 => ⟨S8388608, .f32⟩
  | 29 => ⟨S8388608, .f32⟩
  | 30 => ⟨S8388608, .f32⟩
  | 31 => ⟨S8388608, .f32⟩
  | 32 => ⟨S8388608, .f32⟩
  | 33 => ⟨S8388608, .f32⟩
  | 34 => ⟨S8388608, .f32⟩
  | 35 => ⟨S8388608, .f32⟩
  | 36 => ⟨S8388608, .f32⟩
  | 37 => ⟨S8388608, .f32⟩
  | 38 => ⟨S8388608, .f32⟩
  | _ => ⟨S8388608x2, .f32⟩

abbrev hbmTy (i : Nat) : BufTy := match i / 128 with
  | 0 => hbmTy0_0 i
  | 1 => hbmTy0_1 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_c_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_11 : Ref sig .tc := ⟨.hbm, 71, rfl⟩
abbrev main_v56 : Ref sig .tc := ⟨.hbm, 72, rfl⟩
abbrev main_v57 : Ref sig .tc := ⟨.hbm, 73, rfl⟩
abbrev main_c_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_16 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_17 : Ref sig .tc := ⟨.hbm, 105, rfl⟩
abbrev main_v84 : Ref sig .tc := ⟨.hbm, 106, rfl⟩
abbrev main_v85 : Ref sig .tc := ⟨.hbm, 107, rfl⟩
abbrev main_c_18 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_19 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_20 : Ref sig .tc := ⟨.hbm, 118, rfl⟩
abbrev main_v94 : Ref sig .tc := ⟨.hbm, 119, rfl⟩
abbrev main_v95 : Ref sig .tc := ⟨.hbm, 120, rfl⟩
abbrev main_cst_21 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_c_22 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_c_23 : Ref sig .tc := ⟨.hbm, 139, rfl⟩
abbrev main_v112 : Ref sig .tc := ⟨.hbm, 140, rfl⟩
abbrev main_v113 : Ref sig .tc := ⟨.hbm, 141, rfl⟩
abbrev main_c_24 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_c_25 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_26 : Ref sig .tc := ⟨.hbm, 152, rfl⟩
abbrev main_v122 : Ref sig .tc := ⟨.hbm, 153, rfl⟩
abbrev main_v123 : Ref sig .tc := ⟨.hbm, 154, rfl⟩
abbrev main_cst_27 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩

abbrev nD : Nat := 1
abbrev τ : Topo := Topo.v7x

variable {F : FTy → Type} [FloatOps F]

class Facts₀ : Prop where
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)

variable [Facts₀]

class Facts : Prop extends Facts₀ where

variable [Facts]
-- ==== Proof.Noise.lean ====
/-
  Hashed value noise on the integer lattice, as one function of a point.

  A point `(x, y)` lies in the lattice cell whose lower corner is `(⌊x⌋, ⌊y⌋)`; inside the cell it sits at
  `(x - ⌊x⌋, y - ⌊y⌋)`. Each of the cell's four corners gets a pseudo-random value from an integer hash of the
  corner's coordinates and a per-point seed, and the noise is the bilinear interpolation of the four values:
  `top + fy · (bot - top)` with `top = c00 + fx · (c10 - c00)` and `bot = c01 + fx · (c11 - c01)`.

  The hash of a corner `(i, j)` starts from the linear form `i · 1619 + j · 31337 + seed · 1013` in wrapping 32-bit
  arithmetic. The four corners are `(i, j)`, `(i + 1, j)`, `(i, j + 1)`, `(i + 1, j + 1)`, so their linear forms are the
  first one moved by the constants `0`, `1619`, `31337` and `1619 + 31337 = 32956`: multiplication distributes over
  addition in the ring of 32-bit words. One side of this certificate computes the four forms from scratch
  (`noiseRef`), the other computes the first and adds the constants (`noise`); `noiseRef_eq` says they agree.

  The hash's last step scales a 31-bit word `r` into `(-1, 1]` as `1 - r / 2³⁰`. One side divides by `2³⁰`, the other
  multiplies by `2⁻³⁰`; both constants are exact powers of two, and on the extended reals a quotient by a nonzero
  real IS the product with its reciprocal (`Ideal.div_coe`), so the two agree at every value, finite or not.
  The arithmetic right shift by 13 is MLIR's shift on either unit, 13 being below the width.
-/
import Idealize.ShloMosaic.PureOps.Ideal
import Idealize.ShloMosaic.Lib.ValueIdx

noncomputable section

namespace Cert.Noise

open Idealize.ShloMosaic

/-! ## The two powers of two -/

/-- The divisor `1073741824.0` denotes `2³⁰`. -/
theorem ofBits_two30 : Ideal.ofBits .f32 0x4E800000#32 = ((1073741824 : ℝ) : EReal) := by
  simp [Ideal.ofBits, Ideal.ieee, -EReal.coe_mul]; norm_num

/-- The factor `9.31322574E-10` denotes `2⁻³⁰` exactly. -/
theorem ofBits_inv_two30 : Ideal.ofBits .f32 0x30800000#32 = ((1 / 1073741824 : ℝ) : EReal) := by
  simp [Ideal.ofBits, Ideal.ieee, -EReal.coe_mul]; norm_num

/-- Dividing by `2³⁰` is multiplying by `2⁻³⁰`, at every extended real. -/
theorem div_two30 (z : EReal) :
    Ideal.div z (Ideal.ofBits .f32 0x4E800000#32) = z * Ideal.ofBits .f32 0x30800000#32 := by
  rw [ofBits_two30, ofBits_inv_two30, Ideal.div_coe (by norm_num : (1073741824 : ℝ) ≠ 0)]

/-! ## The cell and the position inside it -/

/-- The lower lattice coordinate of `x` as a signed 32-bit word: `⌊x⌋`, converted. -/
def cell (x : EReal) : BitVec 32 := Ideal.fptosi 32 (Ideal.liftRound Int.floor x)

/-- The position of `x` inside its cell: `x - ⌊x⌋`. -/
def frac (x : EReal) : EReal := x - Ideal.liftRound Int.floor x

/-! ## The hash -/

/-- The avalanche step on a 31-bit word `n`: with `a = (n >> 13) ⊕ n`, the word
    `(a · (a² · 60493 + 19990303) + 1376312589) mod 2³¹`, in wrapping arithmetic. `u` is the unit whose shift
    is meant; `mix_host` says it does not matter. -/
def mix (u : ArithUnit) (n : BitVec 32) : BitVec 32 :=
  IntOp.andi
    (IntOp.addi
      (IntOp.muli (IntOp.xori (IntOp.shrsi u n 13#32) n)
        (IntOp.addi (IntOp.muli (IntOp.muli (IntOp.xori (IntOp.shrsi u n 13#32) n) (IntOp.xori (IntOp.shrsi u n 13#32) n)) 60493#32)
          19990303#32))
      1376312589#32)
    2147483647#32

/-- A shift by 13 is below the width: the host's shift is the vector unit's. -/
theorem shrsi_host (n : BitVec 32) : IntOp.shrsi .host n 13#32 = IntOp.shrsi .vector n 13#32 := by
  unfold IntOp.shrsi
  rw [if_pos (by decide), if_pos (by decide)]

theorem mix_host (n : BitVec 32) : mix .host n = mix .vector n := by
  unfold mix
  rw [shrsi_host]

/-- The linear form of the cell's lower corner: `i · 1619 + j · 31337 + seed · 1013`. -/
def base (i j s : BitVec 32) : BitVec 32 :=
  IntOp.addi (IntOp.addi (IntOp.muli i 1619#32) (IntOp.muli j 31337#32)) (IntOp.muli s 1013#32)

/-- A corner's value from its linear form `h` moved by the constant `off`: the form masked to 31 bits, the
    avalanche, and the scaling `1 - r · 2⁻³⁰`. -/
def corner (h off : BitVec 32) : EReal :=
  Ideal.ofBits .f32 0x3F800000#32
    - ((((mix .vector (IntOp.andi (IntOp.addi h off) 2147483647#32)).toInt : ℝ) : EReal) * Ideal.ofBits .f32 0x30800000#32)

/-- The same value computed from the corner's own coordinates, the scaling spelled `1 - r / 2³⁰`. -/
def cornerRef (i j s : BitVec 32) : EReal :=
  Ideal.ofBits .f32 0x3F800000#32
    - Ideal.div (((mix .host (IntOp.andi (base i j s) 2147483647#32)).toInt : ℝ) : EReal) (Ideal.ofBits .f32 0x4E800000#32)

/-- The four corners' linear forms are the first one moved by constants. -/
theorem base_zero (i j s : BitVec 32) : base i j s = IntOp.addi (base i j s) 0#32 := by
  simp only [IntOp.addi, BitVec.add_zero]

theorem base_succ_left (i j s : BitVec 32) : base (IntOp.addi i 1#32) j s = IntOp.addi (base i j s) 1619#32 := by
  simp only [base, IntOp.addi, IntOp.muli]
  rw [BitVec.add_mul, BitVec.one_mul]
  ac_rfl

theorem base_succ_right (i j s : BitVec 32) : base i (IntOp.addi j 1#32) s = IntOp.addi (base i j s) 31337#32 := by
  simp only [base, IntOp.addi, IntOp.muli]
  rw [BitVec.add_mul, BitVec.one_mul]
  ac_rfl

theorem base_succ_both (i j s : BitVec 32) :
    base (IntOp.addi i 1#32) (IntOp.addi j 1#32) s = IntOp.addi (base i j s) 32956#32 := by
  simp only [base, IntOp.addi, IntOp.muli]
  rw [BitVec.add_mul, BitVec.add_mul, BitVec.one_mul, BitVec.one_mul,
    show (32956#32 : BitVec 32) = 1619#32 + 31337#32 from by decide]
  ac_rfl

/-- A corner's value from its own coordinates is its value from a linear form it equals. -/
theorem cornerRef_eq (i j s h off : BitVec 32) (e : base i j s = IntOp.addi h off) :
    cornerRef i j s = corner h off := by
  unfold cornerRef corner
  rw [e, mix_host, div_two30]

/-! ## The noise at a point -/

/-- Bilinear interpolation of four corner values at the position `(fx, fy)` inside the cell. -/
def bilerp (fx fy c00 c10 c01 c11 : EReal) : EReal :=
  (c00 + fx * (c10 - c00)) + fy * ((c01 + fx * (c11 - c01)) - (c00 + fx * (c10 - c00)))

/-- The noise at `(x, y)` with seed `s`: the four corners from ONE linear form moved by constants. -/
def noise (x y : EReal) (s : BitVec 32) : EReal :=
  bilerp (frac x) (frac y)
    (corner (base (cell x) (cell y) s) 0#32)
    (corner (base (cell x) (cell y) s) 1619#32)
    (corner (base (cell x) (cell y) s) 31337#32)
    (corner (base (cell x) (cell y) s) 32956#32)

/-- The noise with each corner hashed from its own coordinates. -/
def noiseRef (x y : EReal) (s : BitVec 32) : EReal :=
  bilerp (frac x) (frac y)
    (cornerRef (cell x) (cell y) s)
    (cornerRef (IntOp.addi (cell x) 1#32) (cell y) s)
    (cornerRef (cell x) (IntOp.addi (cell y) 1#32) s)
    (cornerRef (IntOp.addi (cell x) 1#32) (IntOp.addi (cell y) 1#32) s)

/-- The two spellings are one function. -/
theorem noiseRef_eq (x y : EReal) (s : BitVec 32) : noiseRef x y s = noise x y s := by
  unfold noiseRef noise
  rw [cornerRef_eq _ _ _ _ _ (base_zero _ _ _), cornerRef_eq _ _ _ _ _ (base_succ_left _ _ _),
    cornerRef_eq _ _ _ _ _ (base_succ_right _ _ _), cornerRef_eq _ _ _ _ _ (base_succ_both _ _ _)]

end Cert.Noise

end
-- ==== Proof.Body.lean ====
/-
  What the kernel body computes at one grid point, entry by entry.

  The body loads three `2048 × 128` blocks — the points' `x`, their `y`, their seeds — and stores one block. Every
  operation between the loads and the store is pointwise, so entry `j` of the stored block depends on entry `j` of
  each loaded block only, and it is the lattice noise of that point (`Cert.Noise.noise`): the cell `⌊x⌋, ⌊y⌋`, the
  shared linear form of the hash, its four corner values from the constants `0`, `1619`, `31337`, `32956`, and
  their bilinear interpolation at `(x - ⌊x⌋, y - ⌊y⌋)`. The body's shape casts are between equal shapes and drop out.
-/
import proofs.«418538_j9216999817324_3_alg».proof.Proof.Gen.KernelIdeal.Skeleton
import proofs.«418538_j9216999817324_3_alg».proof.Proof.Noise
import Idealize.ShloMosaic.Lib.Pipeline.Value
import Idealize.ShloMosaic.Lib.ValueIdx

noncomputable section

namespace Cert.KernelIdeal.NoiseBody

open Idealize.ShloMosaic Idealize.ShloMosaic.ValueIdx Cert.KernelIdeal Cert.KernelIdeal.Gen

/-- The stored block is the noise of the three loaded blocks, entry by entry. -/
theorem stored_eq (x0 x1 : Vec Ideal S2048x128 .f32) (x2 : Vec Ideal S2048x128 .i32) :
    k0_pay1 (F := Ideal) (k0_pay6 x0) (k0_pay7 x1) (k0_pay8 x0 x1 x2) (k0_pay11 (k0_pay9 x0 x1 x2) (k0_pay10 (F := Ideal)))
        (k0_pay12 (F := Ideal) (k0_pay8 x0 x1 x2)) (k0_pay13 (F := Ideal) (k0_pay8 x0 x1 x2))
      = fun j => Cert.Noise.noise (x0 j) (x1 j) (x2 j) := by
  funext j
  simp only [k0_pay1, k0_pay2, k0_pay3, k0_pay4, k0_pay5, k0_pay6, k0_pay7, k0_pay8, k0_pay9, k0_pay10, k0_pay11,
    k0_pay12, k0_pay13, shapeCast_self]
  rfl

end Cert.KernelIdeal.NoiseBody

end
-- ==== Proof.Field.lean ====
/-
  The noise of every point, as ONE function of the two argument arrays, and how the flat list of points is laid out
  as a matrix.

  There are `8388608 = 65536 · 128` points. Point `n` has its coordinates in row `n` of the position array
  (`x` in column 0, `y` in column 1) and its seed at entry `n` of the seed array; `field` is the noise of each.

  One side of the certificate works on the points as a `65536 × 128` matrix in row-major order: point `n` sits at
  row `n / 128`, lane `n % 128`, and entry `(p, q)` of the matrix is point `p · 128 + q`. The lemmas below read the three
  re-laid arrays (a column of the positions, flattened and re-laid; the seeds re-laid) at a matrix entry, and a
  matrix flattened back at a point.
-/
import Idealize.ShloMosaic.Lib.Pipeline.Value
import Idealize.ShloMosaic.Lib.ValueIdx
import proofs.«418538_j9216999817324_3_alg».proof.Proof.Noise

noncomputable section

namespace Cert.Noise

open Idealize.ShloMosaic Idealize.ShloMosaic.ValueIdx

/-- The positions, one row `(x, y)` per point. -/
abbrev SPos : Shape := ⟨2, ![8388608, 2]⟩
/-- One column of the positions, still a matrix. -/
abbrev SCol : Shape := ⟨2, ![8388608, 1]⟩
/-- One value per point. -/
abbrev SFlat : Shape := ⟨1, ![8388608]⟩
/-- The points as rows of 128 lanes. -/
abbrev SMat : Shape := ⟨2, ![65536, 128]⟩

/-- The noise of every point: point `i`'s coordinates are row `i` of `pos`, its seed entry `i` of `seed`. -/
def field (pos : SPos.Idx → EReal) (seed : SFlat.Idx → BitVec 32) : SFlat.Idx → EReal :=
  fun i => noise (pos (ix2 (i 0) (0 : Fin 2))) (pos (ix2 (i 0) (1 : Fin 2))) (seed i)

variable {α : Type}

/-- Column 0 of the positions, flattened: entry `k` is `x` of point `k`. -/
theorem col0_flat_apply (pos : SPos.Idx → α) (h1 : SPos.Slices ![0, 0] SCol) (h2 : SCol.ShapeCasts SFlat) (k : Fin 8388608) :
    shapeCast SFlat (extractStridedSlice SCol ![0, 0] pos h1) h2 (ix1 k) = pos (ix2 k (0 : Fin 2)) := by
  refine (shapeCast_apply _ h2 (ix1 k) (ix2 k (0 : Fin 1)) ?_).trans ?_
  · rw [Shape.rowMajor_val_two, Shape.rowMajor_val_one]; show k.val * 1 + 0 = k.val; omega
  exact extractStridedSlice_apply ![0, 0] pos h1 (ix2 k (0 : Fin 1)) (ix2 k (0 : Fin 2)) (fun a => match a with
    | ⟨0, _⟩ => by show k.val = 0 + k.val; omega
    | ⟨1, _⟩ => by show 0 = 0 + 0; rfl)

/-- Column 1 of the positions, flattened: entry `k` is `y` of point `k`. -/
theorem col1_flat_apply (pos : SPos.Idx → α) (h1 : SPos.Slices ![0, 1] SCol) (h2 : SCol.ShapeCasts SFlat) (k : Fin 8388608) :
    shapeCast SFlat (extractStridedSlice SCol ![0, 1] pos h1) h2 (ix1 k) = pos (ix2 k (1 : Fin 2)) := by
  refine (shapeCast_apply _ h2 (ix1 k) (ix2 k (0 : Fin 1)) ?_).trans ?_
  · rw [Shape.rowMajor_val_two, Shape.rowMajor_val_one]; show k.val * 1 + 0 = k.val; omega
  exact extractStridedSlice_apply ![0, 1] pos h1 (ix2 k (0 : Fin 1)) (ix2 k (1 : Fin 2)) (fun a => match a with
    | ⟨0, _⟩ => by show k.val = 0 + k.val; omega
    | ⟨1, _⟩ => by show 1 = 1 + 0; rfl)

/-- A flat array re-laid as the matrix: entry `(p, q)` is entry `p · 128 + q`. -/
theorem mat_apply (v : SFlat.Idx → α) (h : SFlat.ShapeCasts SMat) (p : Fin 65536) (q : Fin 128) (k : Fin 8388608)
    (hk : k.val = p.val * 128 + q.val) : shapeCast SMat v h (ix2 p q) = v (ix1 k) := by
  refine shapeCast_apply v h (ix2 p q) (ix1 k) ?_
  rw [Shape.rowMajor_val_one, Shape.rowMajor_val_two]; exact hk

/-- The matrix flattened back: entry `k` is entry `(k / 128, k % 128)`. -/
theorem flat_apply (v : SMat.Idx → α) (h : SMat.ShapeCasts SFlat) (p : Fin 65536) (q : Fin 128) (k : Fin 8388608)
    (hk : k.val = p.val * 128 + q.val) : shapeCast SFlat v h (ix1 k) = v (ix2 p q) := by
  refine shapeCast_apply v h (ix1 k) (ix2 p q) ?_
  rw [Shape.rowMajor_val_one, Shape.rowMajor_val_two]; exact hk.symm

end Cert.Noise

end
-- ==== Proof.KernelValue.lean ====
/-
  The kernel's result array, as the noise field of its arguments.

  The program splits the positions into their `x` and `y` columns, re-lays each (and the seeds) as a
  `65536 × 128` matrix, runs the body over a grid of 32 points — point `t` takes rows `2048 t … 2048 t + 2047` of
  each matrix and writes the same rows of the result matrix — and flattens the result matrix back to one value per point.

  All four windows move together (block `t` of each is rows `2048 t …`), so what point `t` writes back is block `t`
  of ONE matrix: the entrywise noise of the three input matrices. The 32 blocks tile the 65536 rows (row `r` lies in
  block `r / 2048`), so the result matrix is that entrywise noise everywhere; read through the layouts, entry
  `(n / 128, n % 128)` of each input matrix is point `n`'s `x`, `y` or seed, and the flattened result at `n` is the noise of
  point `n`: `Cert.Noise.field`.
-/
import proofs.«418538_j9216999817324_3_alg».proof.Proof.Gen.KernelIdeal.Frame
import proofs.«418538_j9216999817324_3_alg».proof.Proof.Body
import proofs.«418538_j9216999817324_3_alg».proof.Proof.Field
import Idealize.ShloMosaic.Lib.Pipeline.Value
import Idealize.ShloMosaic.Lib.ValueIdx
import Idealize.ShloMosaic.Lib.StableHlo.Run

set_option maxRecDepth 16384

noncomputable section

namespace Cert.KernelIdeal.NoiseValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## What a point writes back -/

theorem offset_zero : (![0, 0] : Fin 2 → Nat) = fun _ => 0 := funext fun a => by fin_cases a <;> rfl

/-- The entrywise noise of an `x` matrix, a `y` matrix and a seed matrix. -/
abbrev matNoise (a0 a1 : S65536x128.Idx → Elt Ideal .f32) (a2 : S65536x128.Idx → Elt Ideal .i32) :
    S65536x128.Idx → Elt Ideal .f32 :=
  fun i => Cert.Noise.noise (a0 i) (a1 i) (a2 i)

/-- The four windows' blocks move together: at every point each input window's block index is the output's, which
    runs over the 32 row blocks of the one column block. -/
theorem blocks_aligned : ∀ t : Fin cfg0.N,
    win0_0.index t (0 : Fin 2) = win0_3.index t (0 : Fin 2) + 0
    ∧ win0_0.index t (1 : Fin 2) = win0_3.index t (1 : Fin 2) + 0
    ∧ win0_1.index t (0 : Fin 2) = win0_3.index t (0 : Fin 2) + 0
    ∧ win0_1.index t (1 : Fin 2) = win0_3.index t (1 : Fin 2) + 0
    ∧ win0_2.index t (0 : Fin 2) = win0_3.index t (0 : Fin 2) + 0
    ∧ win0_2.index t (1 : Fin 2) = win0_3.index t (1 : Fin 2) + 0
    ∧ win0_3.index t (0 : Fin 2) ≤ 31
    ∧ win0_3.index t (1 : Fin 2) ≤ 0 :=
  (by decide +kernel : ∀ t : Fin grid0.N, _)

/-- Every row block is some point's. -/
theorem blocks_onto : ∀ (b : Fin 32), ∃ t : Fin cfg0.N, win0_3.index t = ![b.val, 0] :=
  (by decide +kernel : ∀ (b : Fin 32), ∃ t : Fin grid0.N, win0_3.index t = ![b.val, 0])

/-- What point `t` writes back is block `t` of the entrywise noise of the three matrices the region finds. -/
theorem flushed_eq (c : Dev nD) (t : Fin cfg0.N) :
    (dats m 0 c).flushed 3 t
      = ((cfg0.win 3).blk t).view.read (Elt Ideal) (matNoise (V m c main_v2) (V m c main_v5) (V m c main_v6)) := by
  show (cfg0.win 3).cut (grid0.coords t) ((dats m 0 c).after 3 t) = _
  rw [after0_3]
  unfold out0_3
  rw [View.canon_unit_zero offset_zero]
  simp only [View.ld_unit_zero (S := S2048x128) offset_zero]
  rw [Cert.KernelIdeal.NoiseBody.stored_eq]
  obtain ⟨e0, e1, e2, e3, e4, e5, e6, e7⟩ := blocks_aligned t
  funext j
  show Cert.Noise.noise (V m c main_v2 (((cfg0.win 0).blk t).view.emb j)) (V m c main_v5 (((cfg0.win 1).blk t).view.emb j))
        (V m c main_v6 (((cfg0.win 2).blk t).view.emb j))
      = Cert.Noise.noise (V m c main_v2 (((cfg0.win 3).blk t).view.emb j)) (V m c main_v5 (((cfg0.win 3).blk t).view.emb j))
        (V m c main_v6 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 2048 + 1 * (j 0).val = win0_3.index t (0 : Fin 2) * 2048 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 2048 + 1 * (j 0).val = win0_3.index t (0 : Fin 2) * 2048 + 1 * (j 0).val; omega
    | ⟨1, _⟩ => show win0_2.index t (1 : Fin 2) * 128 + 1 * (j 1).val = win0_3.index t (1 : Fin 2) * 128 + 1 * (j 1).val; omega
  rw [h0, h1, h2]

/-! ## The result matrix after the run -/

/-- An entry of the result matrix is in point `t`'s block iff each coordinate is in the block's range. -/
theorem mem_blk (t : Fin cfg0.N) (i : S65536x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v7).slice (win0_3.rect t)).set ↔ _
  rw [View.set_slice_whole, Rect.mem_set_unit]
  exact Iff.rfl

/-- The 32 blocks tile the matrix: row `r` lies in the block of index `r / 2048`. -/
theorem covered (i : S65536x128.Idx) :
    ∃ t : Fin cfg0.N, (cfg0.win 3).flush t = true ∧ i ∈ ((cfg0.win 3).blk t).view.set := by
  have hi0 : (i 0).val < 65536 := (i 0).isLt
  have hi1 : (i 1).val < 128 := (i 1).isLt
  obtain ⟨t, ht⟩ := blocks_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- The result matrix ends as the entrywise noise of the three matrices the region finds. -/
theorem final (c : Dev nD) :
    (dats m 0 c).arrAt 3 cfg0.N = matNoise (V m c main_v2) (V m c main_v5) (V m c main_v6) :=
  (dats m 0 c).arrAt_eq_of_cover 3 _ (fun t _ => flushed_eq m c t) covered

/-! ## The three matrices the region finds -/

/-- The `x` matrix: column 0 of the positions, flattened and re-laid. -/
theorem V_x (c : Dev nD) : (V m c main_v2 : S65536x128.Idx → Elt Ideal .f32)
    = shapeCast S65536x128 (shapeCast S8388608 (extractStridedSlice S8388608x1 ![0, 0] (m ((c : Thread nD τ).loc main_arg0))
        slices_S8388608x2_S8388608x1_0_0) shapeCasts_S8388608x1_S8388608) shapeCasts_S8388608_S65536x128 := by
  show StableHlo.after hostOps0 (fun b => m (c, b)) (Proc.devRef .tc main_v2) = _
  after_results; rfl

/-- The `y` matrix: column 1 of the positions, flattened and re-laid. -/
theorem V_y (c : Dev nD) : (V m c main_v5 : S65536x128.Idx → Elt Ideal .f32)
    = shapeCast S65536x128 (shapeCast S8388608 (extractStridedSlice S8388608x1 ![0, 1] (m ((c : Thread nD τ).loc main_arg0))
        slices_S8388608x2_S8388608x1_0_1) shapeCasts_S8388608x1_S8388608) shapeCasts_S8388608_S65536x128 := by
  show StableHlo.after hostOps0 (fun b => m (c, b)) (Proc.devRef .tc main_v5) = _
  after_results; rfl

/-- The seed matrix: the seeds re-laid. -/
theorem V_seed (c : Dev nD) : (V m c main_v6 : S65536x128.Idx → Elt Ideal .i32)
    = shapeCast S65536x128 (m ((c : Thread nD τ).loc main_arg1)) shapeCasts_S8388608_S65536x128 := by
  show StableHlo.after hostOps0 (fun b => m (c, b)) (Proc.devRef .tc main_v6) = _
  after_results; rfl

/-! ## The program's result -/

/-- The flattened result matrix is the noise field of the two arguments. -/
theorem tail_eq (c : Dev nD) :
    Pipeline.afterTail₀ cfgs (dats m) 0 (V0 m) [hostOps1] c main_v8
      = Cert.Noise.field (m ((c : Thread nD τ).loc main_arg0)) (m ((c : Thread nD τ).loc main_arg1)) := by
  unfold Pipeline.afterTail₀
  show StableHlo.after hostOps1 _ (Proc.devRef .tc main_v8) = _
  after_results
  -- the tail's one operation flattens the result matrix, which the run left as the entrywise noise
  have hA : Pipeline.withArrays (cfgs 0).spec c (V0 m c) (fun w => (dats m 0 c).arrAt w (cfgs 0).N) (Proc.devRef .tc main_v7)
      = matNoise (V m c main_v2) (V m c main_v5) (V m c main_v6) :=
    (Pipeline.withArrays_arr spec0 launch0.win.arr_inj c (V0 m c) (fun w => (dats m 0 c).arrAt w cfg0.N) 3).trans (final m c)
  funext i
  obtain ⟨k, rfl⟩ : ∃ k : Fin 8388608, i = ix1 k := ⟨i 0, eq_ix1 i⟩
  have hk : k.val < 8388608 := k.isLt
  -- point `k` sits at row `k / 128`, lane `k % 128`
  obtain ⟨p, q, hpq⟩ : ∃ (p : Fin 65536) (q : Fin 128), k.val = p.val * 128 + q.val :=
    ⟨⟨k.val / 128, by omega⟩, ⟨k.val % 128, by omega⟩, by show k.val = k.val / 128 * 128 + k.val % 128; omega⟩
  show shapeCast S8388608 (Pipeline.withArrays (cfgs 0).spec c (V0 m c) (fun w => (dats m 0 c).arrAt w (cfgs 0).N)
      (Proc.devRef .tc main_v7)) shapeCasts_S65536x128_S8388608 (ix1 k) = _
  rw [hA]
  refine (Cert.Noise.flat_apply _ shapeCasts_S65536x128_S8388608 p q k hpq).trans ?_
  -- the three matrices at that entry are point `k`'s `x`, `y` and seed
  have ex : V m c main_v2 (ix2 p q) = m ((c : Thread nD τ).loc main_arg0) (ix2 k (0 : Fin 2)) := by
    rw [V_x]
    exact (Cert.Noise.mat_apply _ shapeCasts_S8388608_S65536x128 p q k hpq).trans (Cert.Noise.col0_flat_apply _ _ _ k)
  have ey : V m c main_v5 (ix2 p q) = m ((c : Thread nD τ).loc main_arg0) (ix2 k (1 : Fin 2)) := by
    rw [V_y]
    exact (Cert.Noise.mat_apply _ shapeCasts_S8388608_S65536x128 p q k hpq).trans (Cert.Noise.col1_flat_apply _ _ _ k)
  have es : V m c main_v6 (ix2 p q) = m ((c : Thread nD τ).loc main_arg1) (ix1 k) := by
    rw [V_seed]
    exact Cert.Noise.mat_apply _ shapeCasts_S8388608_S65536x128 p q k hpq
  show Cert.Noise.noise (V m c main_v2 (ix2 p q)) (V m c main_v5 (ix2 p q)) (V m c main_v6 (ix2 p q))
      = Cert.Noise.noise (m ((c : Thread nD τ).loc main_arg0) (ix2 k (0 : Fin 2))) (m ((c : Thread nD τ).loc main_arg0) (ix2 k (1 : Fin 2)))
          (m ((c : Thread nD τ).loc main_arg1) (ix1 k))
  rw [ex, ey, es]

/-- The program's run, read: the result holds the noise field of the two arguments, which end unchanged. -/
theorem run : θ_run defs (onTc (τ := τ) (main (F := Ideal))) ⟨m, fun _ => 0, ρ⟩ fun r => ∀ c : Dev nD,
      r.2.mem ((c.tc : Thread nD τ).loc main_v8)
        = Cert.Noise.field (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v8 (Pipeline.mem_restRefs_of main_v8 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.NoiseValue

end
-- ==== Proof.RefValue.lean ====
/-
  The reference's result array, as the noise field of its arguments.

  The reference works on the flat list of points. It takes the `x` and `y` columns of the positions, and from there
  every operation is pointwise: the fractions `x - ⌊x⌋`, `y - ⌊y⌋`; the cell coordinates `⌊x⌋`, `⌊y⌋` as integers and
  their successors; for each of the four corners its own hash from its own coordinates, scaled `1 - r / 2³⁰`; and the
  bilinear interpolation. So entry `i` of the result is `Cert.Noise.noiseRef` of point `i`'s `x`, `y` and seed, which
  is the noise of that point (`Cert.Noise.noiseRef_eq`: the four hashes' linear forms differ by constants, and dividing
  by `2³⁰` is multiplying by `2⁻³⁰`).
-/
import proofs.«418538_j9216999817324_3_alg».proof.Proof.Gen.ReferenceIdeal.Read
import proofs.«418538_j9216999817324_3_alg».proof.Proof.Field
import Idealize.ShloMosaic.Lib.ValueIdx

noncomputable section

namespace Cert.ReferenceIdeal.NoiseRef

open Idealize.ShloMosaic Idealize.ShloMosaic.TcCoe Idealize.ShloMosaic.ValueIdx Idealize.SL.Sem
open Cert.ReferenceIdeal Cert.ReferenceIdeal.Read Cert.Noise

variable (x0 : (⟨S8388608x2, .f32⟩ : BufTy).Contents (Elt Ideal)) (x1 : (⟨S8388608, .i32⟩ : BufTy).Contents (Elt Ideal))
  (i : S8388608.Idx)

/-! ## The two columns -/

/-- Entry `i` of the flattened column 0 is `x` of point `i`. -/
theorem x_eq : val_main_v1 (F := Ideal) x0 i = x0 (ix2 (i 0) (0 : Fin 2)) := by
  rw [val_main_v1_apply, val_main_v0_apply]
  refine congrArg x0 (funext fun a => Fin.ext ?_)
  match a with
  | ⟨0, _⟩ => exact Nat.div_one _
  | ⟨1, _⟩ => rfl

/-- Entry `i` of the flattened column 1 is `y` of point `i`. -/
theorem y_eq : val_main_v3 (F := Ideal) x0 i = x0 (ix2 (i 0) (1 : Fin 2)) := by
  rw [val_main_v3_apply, val_main_v2_apply]
  refine congrArg x0 (funext fun a => Fin.ext ?_)
  match a with
  | ⟨0, _⟩ => exact Nat.div_one _
  | ⟨1, _⟩ => rfl

/-! ## The pointwise stages, named by what they are -/

theorem fx_eq : val_main_v6 (F := Ideal) x0 i = frac (val_main_v1 (F := Ideal) x0 i) := rfl
theorem fy_eq : val_main_v7 (F := Ideal) x0 i = frac (val_main_v3 (F := Ideal) x0 i) := rfl
theorem cx_eq : val_main_v8 (F := Ideal) x0 i = cell (val_main_v1 (F := Ideal) x0 i) := rfl
theorem cy_eq : val_main_v9 (F := Ideal) x0 i = cell (val_main_v3 (F := Ideal) x0 i) := rfl
theorem cx1_eq : val_main_v11 (F := Ideal) x0 i = IntOp.addi (val_main_v8 (F := Ideal) x0 i) 1#32 := rfl
theorem cy1_eq : val_main_v13 (F := Ideal) x0 i = IntOp.addi (val_main_v9 (F := Ideal) x0 i) 1#32 := rfl

/-- The corner `(⌊x⌋, ⌊y⌋)`. -/
theorem c00_eq : val_main_v41 (F := Ideal) x0 x1 i
    = cornerRef (val_main_v8 (F := Ideal) x0 i) (val_main_v9 (F := Ideal) x0 i) (x1 i) := rfl
/-- The corner `(⌊x⌋ + 1, ⌊y⌋)`. -/
theorem c10_eq : val_main_v69 (F := Ideal) x0 x1 i
    = cornerRef (val_main_v11 (F := Ideal) x0 i) (val_main_v9 (F := Ideal) x0 i) (x1 i) := rfl
/-- The corner `(⌊x⌋, ⌊y⌋ + 1)`. -/
theorem c01_eq : val_main_v97 (F := Ideal) x0 x1 i
    = cornerRef (val_main_v8 (F := Ideal) x0 i) (val_main_v13 (F := Ideal) x0 i) (x1 i) := rfl
/-- The corner `(⌊x⌋ + 1, ⌊y⌋ + 1)`. -/
theorem c11_eq : val_main_v125 (F := Ideal) x0 x1 i
    = cornerRef (val_main_v11 (F := Ideal) x0 i) (val_main_v13 (F := Ideal) x0 i) (x1 i) := rfl

/-- The result is the bilinear interpolation of the four corner values at the two fractions. -/
theorem out_eq : val_main_v134 (F := Ideal) x0 x1 i
    = bilerp (val_main_v6 (F := Ideal) x0 i) (val_main_v7 (F := Ideal) x0 i) (val_main_v41 (F := Ideal) x0 x1 i)
        (val_main_v69 (F := Ideal) x0 x1 i) (val_main_v97 (F := Ideal) x0 x1 i) (val_main_v125 (F := Ideal) x0 x1 i) := rfl

/-! ## The result array -/

/-- The reference's last stage is the noise field of the two arrays. -/
theorem stage_eq : val_main_v134 (F := Ideal) x0 x1 = field x0 x1 := by
  funext i
  rw [out_eq, c00_eq, c10_eq, c01_eq, c11_eq, cx1_eq, cy1_eq, fx_eq, fy_eq, cx_eq, cy_eq, x_eq, y_eq]
  exact noiseRef_eq _ _ _

/-- The term the reference's run ends at is the noise field of its arguments. -/
theorem result_eq (m : (ℓ : Loc nD τ sig) → Buf (Elt Ideal) ℓ) (c : Dev nD) :
    Cert.ReferenceIdeal.Value.res_main_v134 m c
      = field (m ((c.tc : Thread nD τ).loc main_arg0)) (m ((c.tc : Thread nD τ).loc main_arg1)) :=
  (val_main_v134_eq m c).trans (stage_eq _ _)

end Cert.ReferenceIdeal.NoiseRef

end
-- ==== Proof.lean ====
/-
  Hashed value noise at 8388608 points: a kernel that works on the points as a `65536 × 128` matrix, block by block,
  computes the same function of the positions and the seeds as the plain reference that works on the flat list.

  Both compute, for every point, the bilinear interpolation of four hashed lattice-corner values at the point's
  position inside its cell (`Cert.Noise.field`, Proof/Field.lean over Proof/Noise.lean). They differ in three ways, none
  of which changes a value over the extended reals:
  * the reference hashes each corner from its own coordinates, the kernel hashes the lower corner's linear form once
    and moves it by the constants `1619`, `31337`, `32956` — equal in the ring of 32-bit words;
  * the reference scales the hash by dividing by `2³⁰`, the kernel by multiplying by `2⁻³⁰` — equal at every
    extended real, both constants being exact;
  * the kernel re-lays the points as rows of 128 lanes and handles 2048 rows per grid point; the blocks tile the
    matrix and every operation is pointwise, so the layout does not matter.
  Proof/KernelValue.lean reads the kernel's result array off its run, Proof/RefValue.lean the reference's; here the two
  runs are set side by side. No law used needs the inputs finite, so the precondition is never opened. The kernel's
  idealization rewrote nothing, so that conjunct is trivial. The three frames are the programs' runs with the result
  forgotten.
-/
import proofs.«418538_j9216999817324_3_alg».proof.Defs
import proofs.«418538_j9216999817324_3_alg».proof.Proof.Gen.Kernel
import proofs.«418538_j9216999817324_3_alg».proof.Proof.Gen.Kernel.Skeleton
import proofs.«418538_j9216999817324_3_alg».proof.Proof.Gen.Kernel.Launch
import proofs.«418538_j9216999817324_3_alg».proof.Proof.Gen.Kernel.Points
import proofs.«418538_j9216999817324_3_alg».proof.Proof.Gen.Kernel.Frame
import proofs.«418538_j9216999817324_3_alg».proof.Proof.Gen.KernelIdeal
import proofs.«418538_j9216999817324_3_alg».proof.Proof.Gen.KernelIdeal.Skeleton
import proofs.«418538_j9216999817324_3_alg».proof.Proof.Gen.KernelIdeal.Launch
import proofs.«418538_j9216999817324_3_alg».proof.Proof.Gen.KernelIdeal.Points
import proofs.«418538_j9216999817324_3_alg».proof.Proof.Gen.KernelIdeal.Frame
import proofs.«418538_j9216999817324_3_alg».proof.Proof.Gen.ReferenceIdeal
import proofs.«418538_j9216999817324_3_alg».proof.Proof.Gen.Pre_finite_inputs
import proofs.«418538_j9216999817324_3_alg».proof.Proof.Gen.ReferenceIdeal.Run
import proofs.«418538_j9216999817324_3_alg».proof.Proof.Gen.ReferenceIdeal.Read
import Idealize.ShloMosaic.Adequacy
import Idealize.ShloMosaic.Init

import proofs.«418538_j9216999817324_3_alg».proof.Proof.KernelValue
import proofs.«418538_j9216999817324_3_alg».proof.Proof.RefValue

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the positions and the seeds, both programs end with the noise field of those two
    arrays in their result: the kernel by `Cert.KernelIdeal.NoiseValue.run`, the reference by its run and
    `Cert.ReferenceIdeal.NoiseRef.result_eq`. -/
theorem algebraic : Cert.algebraic_KernelIdeal_ReferenceIdeal := by
  intro m ρ m' ρ' _ hagree
  refine ⟨fun c => Cert.Noise.field (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.NoiseValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.NoiseRef.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
